-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S16384x1024 : Shape := ⟨2, ![16384, 1024]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S4096x16384 .f32) (main_arg1 : FVec F S16384x1024 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  main_v8
-- ==== Kernel.lean ====
abbrev S4096x16384 : Shape := ⟨2, ![4096, 16384]⟩
abbrev S16384x1024 : Shape := ⟨2, ![16384, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .f32⟩
  | .hbm, ⟨1, _⟩ => ⟨S16384x1024, .f32⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x16384.size a
  hwx0_0 : ∀ i : grid0.Coords, EltTy.bits .f32 = 32 ∨ (Rect.block (s := S4096x16384) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .f32 = 32 ∨ (Rect.block (s := S4096x1024) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x16384 : Shape := ⟨2, ![4096, 16384]⟩
abbrev S16384x1024 : Shape := ⟨2, ![16384, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S16384x1024, .f32⟩
  | .hbm, ⟨2, _⟩ => ⟨S4096x1024, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x16384_S16384x1024_S4096x1024_1_0_0_1_n_n_wf : DotDims.WF S4096x16384 S16384x1024 S4096x1024 [1] [0] [0] [1] [] []

variable [Facts₀]

def dot_S4096x16384_S16384x1024_S4096x1024_1_0_0_1_n_n : DotDims S4096x16384 S16384x1024 S4096x1024 where
  lhsContracting := [1]
  rhsContracting := [0]
  lhsNonContracting := [0]
  rhsNonContracting := [1]
  lhsBatch := []
  rhsBatch := []
  wf := dot_S4096x16384_S16384x1024_S4096x1024_1_0_0_1_n_n_wf

class Facts : Prop extends Facts₀ where

variable [Facts]
-- ==== Proof.Pieces.lean ====
/-
  What one grid point leaves behind, as a value.

  At every point the body loads the x-block and the h-block, loads the accumulator, and stores back
  accumulator + (x-block · h-block); at the first point of a row of 16 it stores the zero block into the accumulator
  first, and at the last point it copies the updated accumulator into the output block.  So, writing
  `step x h acc` for the stored payload (`k0_pay2`) and `zero` for the reset payload (`k0_pay1`):
    first point  (k = 0)      : accumulator becomes  step x h zero
    middle points (0 < k < 15): accumulator becomes  step x h acc
    last point   (k = 15)     : accumulator becomes  step x h acc, and the output block is that same value.
  Each statement reads the pieces the body's run stored — all through the whole-block rectangle at offset (0, 0) —
  back as one function: a single covering store leaves its payload, a reset followed by an update leaves the update,
  and a load of what was just stored reads the stored payload.  Stated for any float instance.
-/
import proofs.«173165_j59906203844970_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The whole-block rectangle's offsets are zero on both axes. -/
theorem hz : (![0, 0] : Fin 2 → Nat) = fun _ => 0 := funext fun a => by fin_cases a <;> rfl

/-- A middle point leaves, in an accumulator that held `acc`, the step over the point's two input blocks. -/
theorem scratch_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (hc0 : ¬cond0_0 i) (hc1 : ¬cond0_1 i)
    (x0 x1 xs0 : Vec F S1024x1024 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.ld_unit_zero (S := S1024x1024) hz]

/-- The first point of a row stores the zero block, reads it back, and leaves the step over it. -/
theorem scratch_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (hc0 : cond0_0 i) (hc1 : ¬cond0_1 i)
    (x0 x1 : Vec F S1024x1024 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1024) hz, View.readCov_unit_zero (S := S1024x1024) _ hz]
  simp only [View.readAt_eq_ld, harg2.read_unread, harg3.read_unread, View.ld_unit_zero (S := S1024x1024) hz]

/-- The last point of a row leaves the same step in the accumulator … -/
theorem scratch_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (hc0 : ¬cond0_0 i) (hc1 : cond0_1 i)
    (x0 x1 xs0 : Vec F S1024x1024 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S1024x1024) hz]

/-- … and copies it into the output block: the load of the accumulator just stored reads the stored step. -/
theorem out_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (hc0 : ¬cond0_0 i) (hc1 : cond0_1 i)
    (x0 x1 xs0 : Vec F S1024x1024 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S1024x1024) _ hz]
  simp only [View.readAt_eq_ld, harg2.read_unread, harg3.read_unread, harg5.read_unread, View.ld_unit_zero (S := S1024x1024) hz]

end Cert.KernelIdeal.Pieces

end
-- ==== Proof.Payload.lean ====
/-
  The step's arithmetic at one entry, on the extended reals.

  Read exactly (a float an extended real, a change of float format the identity), the payload the body stores at
  every point — accumulator + matmul(bf16(x-block), bf16(h-block)) into a zero accumulator — is, at row p and column q,
      acc[p, q] + ∑ kk < 1024, xblk[p, kk] · hblk[kk, q],
  and the reset payload is the zero block.  The matmul's contraction index has one axis (x's columns against h's
  rows); the sum over it is re-indexed to a sum over `Fin 1024` through that axis's coordinate.
-/
import proofs.«173165_j59906203844970_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Payload

open Cert.KernelIdeal Cert.KernelIdeal.Gen

/-- The matmul's left operand is read at the output's row … -/
theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- … and at the contraction coordinate as its column; -/
theorem lhs_col (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- the right operand at the contraction coordinate as its row … -/
theorem rhs_row (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- … and at the output's column. -/
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into a zero accumulator, at (p, q): the sum over the 1024 shared positions. -/
theorem blockdot_apply (a b : FVec Ideal S1024x1024 .bf16) (p q : Fin 1024) :
    matmul dot_S1024x1024_S1024x1024_S1024x1024_1_0_0_1_n_n none a b (constant S1024x1024 .f32 0x00000000#32) (ix2 p q)
      = ∑ kk : Fin 1024, a (ix2 p kk) * b (ix2 kk q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_row _ _
    | ⟨1, _⟩ => exact (lhs_col _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_row _ _).trans hk
    | ⟨1, _⟩ => exact rhs_col _ _)
  rw [el, er]

/-- The step at (p, q): what the accumulator held there plus the row-by-column sum of the two blocks. -/
theorem step_apply (x h acc : Vec Ideal S1024x1024 .f32) (p q : Fin 1024) :
    k0_pay2 (F := Ideal) x h acc (ix2 p q) = acc (ix2 p q) + ∑ kk : Fin 1024, x (ix2 p kk) * h (ix2 kk q) := by
  unfold k0_pay2
  rw [shapeCast_self, addf_apply, blockdot_apply]
  rfl

/-- The reset block is zero everywhere. -/
theorem zero_apply (j : S1024x1024.Idx) : k0_pay1 (F := Ideal) j = 0 := by
  unfold k0_pay1
  rw [shapeCast_self]
  exact Ideal.ofBits_zero_f32

end Cert.KernelIdeal.Payload

end
-- ==== Proof.Regroup.lean ====
/-
  The algebra between the two sides, with no program in it.

  The reference contracts the whole K axis at once: out[r, q] = ∑ k < 16384, x[r, k] · h[k, q].  The kernel walks the
  K axis in 16 chunks of 1024 and adds each chunk's partial product into an accumulator that starts at zero:
  out[r, q] = 0 + ∑ s < 16, ∑ kk < 1024, x[r, 1024·s + kk] · h[1024·s + kk, q].  The two agree in any commutative
  additive monoid, so in particular on the extended reals, where no finiteness is needed: only associativity and
  commutativity of + are used, never distributivity or cancellation.

  Arrays are read here at natural-number coordinates (`at2`), zero outside the array, so that a block's entry
  "offset + local coordinate" can be written without carrying a bound proof through every sum.
-/
import Idealize.ShloMosaic.Lib.ValueIdx

noncomputable section

open scoped BigOperators

namespace Cert.Regroup

open Idealize.ShloMosaic Idealize.ShloMosaic.ValueIdx

/-- A sum over `Fin (a * b)` of a function of the position is the sum over the `a` chunks of the sum over the `b`
    positions inside a chunk, position `b·s + kk`. -/
theorem sum_chunks {M : Type*} [AddCommMonoid M] (a b : ℕ) (f : ℕ → M) :
    ∑ k : Fin (a * b), f k.val = ∑ s ∈ Finset.range a, ∑ kk : Fin b, f (b * s + kk.val) := by
  rw [← Equiv.sum_comp (finProdFinEquiv (m := a) (n := b)) (fun k => f k.val), Fintype.sum_prod_type,
    ← Fin.sum_univ_eq_sum_range (fun s => ∑ kk : Fin b, f (b * s + kk.val)) a]
  refine Finset.sum_congr rfl fun s _ => Finset.sum_congr rfl fun kk _ => ?_
  rw [finProdFinEquiv_apply_val, add_comm]

/-- The K axis of this kernel: 16384 positions are 16 chunks of 1024. -/
theorem sum_16384 {M : Type*} [AddCommMonoid M] (f : ℕ → M) :
    ∑ k : Fin 16384, f k.val = ∑ s ∈ Finset.range 16, ∑ kk : Fin 1024, f (1024 * s + kk.val) :=
  sum_chunks 16 1024 f

/-- A rank-2 array read at natural-number coordinates: its entry inside the array, `0` outside. -/
def at2 {M : Type*} [Zero M] {n0 n1 : ℕ} (x : (⟨2, ![n0, n1]⟩ : Shape).Idx → M) (r c : ℕ) : M :=
  if h : r < n0 ∧ c < n1 then x (ix2 ⟨r, h.1⟩ ⟨c, h.2⟩) else 0

/-- Inside the array `at2` is the entry. -/
theorem at2_ix2 {M : Type*} [Zero M] {n0 n1 : ℕ} (x : (⟨2, ![n0, n1]⟩ : Shape).Idx → M) (r : Fin n0) (c : Fin n1) :
    at2 x r.val c.val = x (ix2 r c) := by
  unfold at2
  rw [dif_pos ⟨r.isLt, c.isLt⟩]

/-- The same for an index given whole, with its coordinates' values named. -/
theorem at2_of_val {M : Type*} [Zero M] {n0 n1 : ℕ} (x : (⟨2, ![n0, n1]⟩ : Shape).Idx → M)
    (j : (⟨2, ![n0, n1]⟩ : Shape).Idx) (r c : ℕ) (hr : (j 0).val = r) (hc : (j 1).val = c) :
    x j = at2 x r c := by
  subst hr; subst hc
  exact ((at2_ix2 x (j 0) (j 1)).trans (congrArg x (eq_ix2 j).symm)).symm

/-! ## The product, one grid point's share of it, and a row of sixteen points -/

/-- THE SPECIFICATION: entry (r, q) of the product of a 4096 × 16384 array with a 16384 × 1024 array, the sum over
    the 16384 shared positions of row r of the first against column q of the second. -/
def product (X : (⟨2, ![4096, 16384]⟩ : Shape).Idx → EReal) (H : (⟨2, ![16384, 1024]⟩ : Shape).Idx → EReal) :
    (⟨2, ![4096, 1024]⟩ : Shape).Idx → EReal :=
  fun i => ∑ k : Fin 16384, at2 X (i 0).val k.val * at2 H k.val (i 1).val

/-- What grid point `n` = (row block n / 16, K chunk n % 16) adds at entry (p, q) of its 1024 × 1024 accumulator: the
    part of row 1024·(n/16) + p against column q that lies in K chunk n % 16. -/
def chunk (X : (⟨2, ![4096, 16384]⟩ : Shape).Idx → EReal) (H : (⟨2, ![16384, 1024]⟩ : Shape).Idx → EReal) (n : ℕ)
    (j : (⟨2, ![1024, 1024]⟩ : Shape).Idx) : EReal :=
  ∑ kk : Fin 1024, at2 X (1024 * (n / 16) + (j 0).val) (1024 * (n % 16) + kk.val) * at2 H (1024 * (n % 16) + kk.val) (j 1).val

/-- Zero plus the sixteen points' shares of row block `a` is the product's entry: at local entry `j` of the block and
    the array's entry `i` = (1024·a + row of j, column of j). -/
theorem chunks_total (X : (⟨2, ![4096, 16384]⟩ : Shape).Idx → EReal) (H : (⟨2, ![16384, 1024]⟩ : Shape).Idx → EReal) (a : ℕ)
    (j : (⟨2, ![1024, 1024]⟩ : Shape).Idx) (i : (⟨2, ![4096, 1024]⟩ : Shape).Idx)
    (hr : (i 0).val = 1024 * a + (j 0).val) (hq : (i 1).val = (j 1).val) :
    0 + ∑ s ∈ Finset.range 16, chunk X H (16 * a + s) j = product X H i := by
  unfold product chunk
  rw [zero_add, hr, hq, sum_16384 (fun k => at2 X (1024 * a + (j 0).val) k * at2 H k (j 1).val)]
  refine Finset.sum_congr rfl fun s hs => ?_
  have hs' : s < 16 := Finset.mem_range.mp hs
  rw [show (16 * a + s) / 16 = a by omega, show (16 * a + s) % 16 = s by omega]

end Cert.Regroup

end
-- ==== Proof.Blocks.lean ====
/-
  Which entries of the arguments a grid point reads.

  The grid is 4 × 16, points numbered row-major: point t is (row block t / 16, K chunk t % 16).  The x-window's block at
  point t is rows 1024·(t/16) … +1023 and columns 1024·(t%16) … +1023 of x; the h-window's block is rows
  1024·(t%16) … +1023 and all 1024 columns of h; the output window's block is rows 1024·(t/16) … +1023 of the result.
  The block-index maps are decided once over the 64 points; an entry of a block is then the array's entry at
  block index × 1024 + the coordinate inside the block.
-/
import proofs.«173165_j59906203844970_1_alg».proof.Proof.Gen.KernelIdeal.Frame
import proofs.«173165_j59906203844970_1_alg».proof.Proof.Regroup
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.Regroup

variable (m : (ℓ : Loc nD τ sig) → Buf (Elt Ideal) ℓ)

/-- The x argument and the h argument on core `c`, as arrays of extended reals. -/
abbrev xarr (c : Dev nD) : S4096x16384.Idx → EReal := m ((c : Thread nD τ).loc main_arg0)
abbrev harr (c : Dev nD) : S16384x1024.Idx → EReal := m ((c : Thread nD τ).loc main_arg1)

/-- The two input blocks at point `t`, as 1024 × 1024 arrays of extended reals. -/
abbrev xblk (c : Dev nD) (t : Fin cfg0.N) : Vec Ideal S1024x1024 .f32 := iblk m c 0 t
abbrev hblk (c : Dev nD) (t : Fin cfg0.N) : Vec Ideal S1024x1024 .f32 := iblk m c 1 t

/-- The block-index maps at point `t`: x at (t / 16, t % 16), h at (t % 16, 0), the result at (t / 16, 0). -/
theorem idx_x : ∀ t : Fin cfg0.N, win0_0.index t (0 : Fin 2) = t.val / 16 ∧ win0_0.index t (1 : Fin 2) = t.val % 16 :=
  (by decide +kernel : ∀ t : Fin grid0.N, _)
theorem idx_h : ∀ t : Fin cfg0.N, win0_1.index t (0 : Fin 2) = t.val % 16 ∧ win0_1.index t (1 : Fin 2) = 0 :=
  (by decide +kernel : ∀ t : Fin grid0.N, _)
theorem idx_o : ∀ t : Fin cfg0.N, win0_2.index t (0 : Fin 2) = t.val / 16 ∧ win0_2.index t (1 : Fin 2) = 0 :=
  (by decide +kernel : ∀ t : Fin grid0.N, _)

/-- Entry (p, kk) of the x-block at point `t` is x[1024·(t/16) + p, 1024·(t%16) + kk]. -/
theorem xblk_apply (c : Dev nD) (t : Fin cfg0.N) (p kk : Fin 1024) :
    xblk m c t (ix2 p kk) = at2 (xarr m c) (1024 * (t.val / 16) + p.val) (1024 * (t.val % 16) + kk.val) := by
  unfold xblk iblk
  rw [View.read_apply]
  show V m c main_arg0 _ = _
  refine at2_of_val (xarr m c) _ _ _ ?_ ?_
  · show win0_0.index t (0 : Fin 2) * 1024 + 1 * p.val = _
    rw [(idx_x t).1]; omega
  · show win0_0.index t (1 : Fin 2) * 1024 + 1 * kk.val = _
    rw [(idx_x t).2]; omega

/-- Entry (kk, q) of the h-block at point `t` is h[1024·(t%16) + kk, q]. -/
theorem hblk_apply (c : Dev nD) (t : Fin cfg0.N) (kk q : Fin 1024) :
    hblk m c t (ix2 kk q) = at2 (harr m c) (1024 * (t.val % 16) + kk.val) q.val := by
  unfold hblk iblk
  rw [View.read_apply]
  show V m c main_arg1 _ = _
  refine at2_of_val (harr m c) _ _ _ ?_ ?_
  · show win0_1.index t (0 : Fin 2) * 1024 + 1 * kk.val = _
    rw [(idx_h t).1]; omega
  · show win0_1.index t (1 : Fin 2) * 1024 + 1 * q.val = _
    rw [(idx_h t).2]; omega

end Cert.KernelIdeal.Blocks

end
-- ==== Proof.KValue.lean ====
/-
  What the kernel leaves in the result array, on the extended reals.

  The accumulator after grid point t = (row block a, K chunk k) holds, at entry (p, q),
      0 + ∑ s ≤ k, (the share of point 16·a + s at (p, q)),
  because the first point of a row stores zero-plus-its-share and every later point adds its own share to what the
  point before left (the fold over the run of points since the last reset, opened as a sum).  At the last point of a
  row, k = 15, the body copies the accumulator into the output block, so what that point writes back is
  0 + ∑ s < 16 of the shares: the product's entries for rows 1024·a … 1024·a + 1023.  The four write-backs (points 15,
  31, 47, 63) tile the 4096 rows, so the whole result array is the product.
-/
import proofs.«173165_j59906203844970_1_alg».proof.Proof.Gen.KernelIdeal.Value
import proofs.«173165_j59906203844970_1_alg».proof.Proof.Pieces
import proofs.«173165_j59906203844970_1_alg».proof.Proof.Payload
import proofs.«173165_j59906203844970_1_alg».proof.Proof.Blocks
import proofs.«173165_j59906203844970_1_alg».proof.Proof.Regroup

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Regroup Cert.KernelIdeal.Blocks

variable (m : (ℓ : Loc nD τ sig) → Buf (Elt Ideal) ℓ) (ρ : Dev nD → PrngReg)

/-- Point `n`'s share at an entry of the accumulator, over this core's arguments. -/
abbrev share (c : Dev nD) (n : ℕ) (j : S1024x1024.Idx) : EReal := chunk (xarr m c) (harr m c) n j

/-- The step over point `t`'s two input blocks adds point `t`'s share to the accumulator, entry by entry. -/
theorem step_at (c : Dev nD) (t : Fin cfg0.N) (acc : Vec Ideal S1024x1024 .f32) (j : S1024x1024.Idx) :
    k0_pay2 (F := Ideal) (xblk m c t) (hblk m c t) acc j = acc j + share m c t.val j := by
  obtain ⟨p, q, rfl⟩ : ∃ (p q : Fin 1024), j = ix2 p q := ⟨j 0, j 1, eq_ix2 j⟩
  rw [Payload.step_apply]
  unfold share chunk
  refine congrArg (acc (ix2 p q) + ·) (Finset.sum_congr rfl fun kk _ => ?_)
  rw [xblk_apply, hblk_apply]

/-- At the first point of a row the accumulator is reset: whatever it held, it ends at zero plus the point's share. -/
theorem sc_reset (c : Dev nD) (n : ℕ) (hb : n < cfg0.N) (h0 : n % 16 = 0) (acc : Vec Ideal S1024x1024 .f32) (j : S1024x1024.Idx) :
    Value.scAt0_0 m c n hb acc j = 0 + share m c n j := by
  have h1 : ¬n % 16 = 15 := by omega
  unfold Value.scAt0_0
  rw [dif_pos h0, dif_neg h1]
  refine (congrFun (Pieces.scratch_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (xblk m c (⟨n, hb⟩ : Fin cfg0.N)) (hblk m c (⟨n, hb⟩ : Fin cfg0.N))) j).trans ?_
  rw [step_at m c (⟨n, hb⟩ : Fin cfg0.N), Payload.zero_apply]

/-- At every other point it ends at what it held plus the point's share. -/
theorem sc_step (c : Dev nD) (n : ℕ) (hb : n < cfg0.N) (h0 : ¬n % 16 = 0) (acc : Vec Ideal S1024x1024 .f32) (j : S1024x1024.Idx) :
    Value.scAt0_0 m c n hb acc j = acc j + share m c n j := by
  unfold Value.scAt0_0
  rw [dif_neg h0]
  by_cases h1 : n % 16 = 15
  · rw [dif_pos h1]
    refine (congrFun (Pieces.scratch_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (xblk m c (⟨n, hb⟩ : Fin cfg0.N)) (hblk m c (⟨n, hb⟩ : Fin cfg0.N)) acc) j).trans ?_
    exact step_at m c (⟨n, hb⟩ : Fin cfg0.N) acc j
  · rw [dif_neg h1]
    refine (congrFun (Pieces.scratch_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (xblk m c (⟨n, hb⟩ : Fin cfg0.N)) (hblk m c (⟨n, hb⟩ : Fin cfg0.N)) acc) j).trans ?_
    exact step_at m c (⟨n, hb⟩ : Fin cfg0.N) acc j

/-- THE ACCUMULATOR after point `t`: zero plus the shares of the points of `t`'s row up to `t`. -/
theorem scratch_after (c : Dev nD) (t : Fin cfg0.N) (j : S1024x1024.Idx) :
    (outsAt0 m c t.val t.isLt).2 j = 0 + ∑ s ∈ Finset.range (t.val % 16 + 1), share m c (16 * (t.val / 16) + s) j := by
  rw [Value.soutsAt0_0_eq m c t]
  exact Pipeline.accAt_add_apply (ι := S1024x1024.Idx) (β := EReal)
    (fun n h => Value.scAt0_0 m c n h (VS0_0.read (Elt Ideal) VS0_0.junk)) (Value.scAt0_0 m c) (fun _ => 0) (share m c)
    (16 * (t.val / 16)) 15
    (fun h i => sc_reset m c _ h (by omega) _ i)
    (fun n h acc i hlt hle => sc_step m c n h (by omega) acc i)
    (t.val % 16) (by omega) _ j

/-- At the last point of a row the output block is the accumulator: both are the step over what the point before left. -/
theorem out_eq_scratch (c : Dev nD) (t : Fin cfg0.N) (h0 : ¬t.val % 16 = 0) (h15 : t.val % 16 = 15) :
    (outsAt0 m c t.val t.isLt).1 = (outsAt0 m c t.val t.isLt).2 := by
  rw [outsAt0_C m c t h0 h15]
  dsimp only
  exact (Pieces.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h15) (iblk m c 0 t) (iblk m c 1 t) (outsAt0 m c (t.val - 1) (Nat.lt_of_le_of_lt (Nat.sub_le _ _) t.isLt)).2).trans
    (Pieces.scratch_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h15) (iblk m c 0 t) (iblk m c 1 t) (outsAt0 m c (t.val - 1) (Nat.lt_of_le_of_lt (Nat.sub_le _ _) t.isLt)).2).symm

/-- After the last point of row block t / 16 the accumulator's entry j is the product's entry (1024·(t/16) + row of j,
    column of j): zero plus all sixteen shares of the row. -/
theorem row_total (c : Dev nD) (t : Fin cfg0.N) (h15 : t.val % 16 = 15) (j : S1024x1024.Idx) (i : S4096x1024.Idx)
    (hr : (i 0).val = 1024 * (t.val / 16) + (j 0).val) (hq : (i 1).val = (j 1).val) :
    (outsAt0 m c t.val t.isLt).2 j = product (xarr m c) (harr m c) i := by
  rw [scratch_after m c t j, h15]
  exact chunks_total (xarr m c) (harr m c) (t.val / 16) j i hr hq

/-- What the result array ends holding: the product of this core's two arguments. -/
abbrev result (c : Dev nD) : Buf (Elt Ideal) ((c : Thread nD τ).loc main_v0) := product (xarr m c) (harr m c)

/-- Reading the output window's block at point `t` out of a whole array `G`, at a local index, is `G` at the array index
    the block embeds it at. -/
theorem read_blk (c : Dev nD) (t : Fin cfg0.N) (G : Buf (Elt Ideal) ((c : Thread nD τ).loc main_v0))
    (y : ((cfg0.win 2).xblock (grid0.coords t)).Idx) :
    ((cfg0.win 2).blk t).view.read (Elt Ideal) G y = G (((cfg0.win 2).blk t).view.emb y) := rfl

/-- WHAT A WRITE-BACK WRITES: at a point that writes the output block back (the last of its row), the block is the
    product's block of rows 1024·(t/16) … — the sixteen shares of the row, summed. -/
theorem flushed_eq (c : Dev nD) (t : Fin cfg0.N) (hf : (cfg0.win 2).flush t = true) :
    (dats m 0 c).flushed 2 t = ((cfg0.win 2).blk t).view.read (Elt Ideal) (result m c) := by
  have h15 : t.val % 16 = 15 := (flush0_2 t).mp hf
  have h0 : ¬t.val % 16 = 0 := by omega
  rw [Value.flushed2, out_eq_scratch m c t h0 h15]
  funext y
  refine Eq.trans ?_ (read_blk c t (result m c) y).symm
  refine row_total m c t h15 ((cfg0.win 2).xinj (grid0.coords t) y) (((cfg0.win 2).blk t).view.emb y) ?_ ?_
  · show win0_2.index t (0 : Fin 2) * 1024 + 1 * (y 0).val = 1024 * (t.val / 16) + (y 0).val
    rw [(idx_o t).1]; omega
  · show win0_2.index t (1 : Fin 2) * 1024 + 1 * (y 1).val = (y 1).val
    rw [(idx_o t).2]; omega

/-- An index of the result array is in point `t`'s block iff each coordinate is in the block's range on its axis. -/
theorem mem_blk (t : Fin cfg0.N) (i : S4096x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every row of the result is written back by the last point of its row block: row r by point 16·(r / 1024) + 15. -/
theorem cover (i : S4096x1024.Idx) : ∃ t : Fin cfg0.N, (cfg0.win 2).flush t = true ∧ i ∈ ((cfg0.win 2).blk t).view.set := by
  have hi0 : (i 0).val < 4096 := (i 0).isLt
  have hi1 : (i 1).val < 1024 := (i 1).isLt
  have hN : cfg0.N = 64 := N_0
  obtain ⟨t, ht⟩ : ∃ t : Fin cfg0.N, t.val = 16 * ((i 0).val / 1024) + 15 := ⟨⟨16 * ((i 0).val / 1024) + 15, by rw [hN]; omega⟩, rfl⟩
  refine ⟨t, (flush0_2 t).mpr (by omega), ?_⟩
  rw [mem_blk]
  intro a
  match a with
  | ⟨0, _⟩ =>
    show win0_2.index t (0 : Fin 2) * 1024 ≤ (i 0).val ∧ (i 0).val < win0_2.index t (0 : Fin 2) * 1024 + 1024
    rw [(idx_o t).1]; omega
  | ⟨1, _⟩ =>
    show win0_2.index t (1 : Fin 2) * 1024 ≤ (i 1).val ∧ (i 1).val < win0_2.index t (1 : Fin 2) * 1024 + 1024
    rw [(idx_o t).2]; omega

/-- THE RESULT ARRAY after the run is the product. -/
theorem final (c : Dev nD) : (dats m 0 c).arrAt 2 cfg0.N = result m c :=
  (dats m 0 c).arrAt_eq_of_cover 2 (result m c) (flushed_eq m c) cover

/-- The kernel's run, read: the result array at the product of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KValue

end
-- ==== Proof.RefValue.lean ====
/-
  The reference's result, as the same function.

  The reference is one host `dot_general` contracting x's columns against h's rows.  Read on the extended reals its
  entry (r, q) is the sum over the 16384 shared positions of x[r, k] · h[k, q]: the specification `product`, with the
  operand indices the contraction reads at spelled by their coordinates.
-/
import proofs.«173165_j59906203844970_1_alg».proof.Proof.Gen.ReferenceIdeal.Read
import proofs.«173165_j59906203844970_1_alg».proof.Proof.Regroup

noncomputable section

open Idealize.ShloMosaic Idealize.ShloMosaic.TcCoe Idealize.SL.Sem

namespace Cert.ReferenceIdeal.RefValue

open Cert.ReferenceIdeal Cert.ReferenceIdeal.Gen Cert.Regroup

/-- The host's product of the two arguments (the reference's one stage) is `product` of them, entry by entry. -/
theorem ref_eq (x0 : (⟨S4096x16384, .f32⟩ : BufTy).Contents (Elt Ideal)) (x1 : (⟨S16384x1024, .f32⟩ : BufTy).Contents (Elt Ideal)) :
    Read.val_main_v0 (F := Ideal) x0 x1 = product x0 x1 := by
  funext i
  rw [Read.val_main_v0_apply]
  unfold product
  refine Finset.sum_congr rfl fun k _ => ?_
  rw [at2_of_val x0 (Read.lidx_main_v0 i k) (i 0).val k.val rfl rfl, at2_of_val x1 (Read.ridx_main_v0 i k) k.val (i 1).val rfl rfl]

end Cert.ReferenceIdeal.RefValue

end
-- ==== Proof.lean ====
/-
  A K-blocked matrix product against the whole product.

  The kernel computes out = x · h for x : [4096, 16384] and h : [16384, 1024] on a 4 × 16 grid: for each of the 4 row
  blocks it walks the 16 chunks of the K axis, zeroing a 1024 × 1024 accumulator at the first chunk, adding the
  chunk's partial product (taken on bf16 copies of the blocks, into f32) at every chunk, and copying the accumulator to
  the output block at the last.  The reference is one matrix product over the whole K axis.

  On the extended reals a change of float format is the identity and every operation is exact, so both sides are
      out[r, q] = ∑ k < 16384, x[r, k] · h[k, q],
  the kernel's as 0 + ∑ over the 16 chunks of the sums over the 1024 positions of a chunk.  The regrouping uses only
  that + is associative and commutative, which holds on the extended reals with their infinities, so the precondition
  (finite inputs) is never opened.  The ideal pass rewrote nothing, so there is nothing to preserve.

  Modules: Regroup (the algebra and the specification), Pieces (what one grid point stores, as a value), Payload (the
  stored value at an entry), Blocks (which entries of x and h a point reads), KValue (the accumulator as a sum, the
  write-backs, the result array), RefValue (the reference is the specification).
-/
import proofs.«173165_j59906203844970_1_alg».proof.Defs
import proofs.«173165_j59906203844970_1_alg».proof.Proof.Gen.Kernel
import proofs.«173165_j59906203844970_1_alg».proof.Proof.Gen.Kernel.Skeleton
import proofs.«173165_j59906203844970_1_alg».proof.Proof.Gen.Kernel.Launch
import proofs.«173165_j59906203844970_1_alg».proof.Proof.Gen.Kernel.Points
import proofs.«173165_j59906203844970_1_alg».proof.Proof.Gen.Kernel.Frame
import proofs.«173165_j59906203844970_1_alg».proof.Proof.Gen.KernelIdeal
import proofs.«173165_j59906203844970_1_alg».proof.Proof.Gen.KernelIdeal.Skeleton
import proofs.«173165_j59906203844970_1_alg».proof.Proof.Gen.KernelIdeal.Launch
import proofs.«173165_j59906203844970_1_alg».proof.Proof.Gen.KernelIdeal.Points
import proofs.«173165_j59906203844970_1_alg».proof.Proof.Gen.KernelIdeal.Frame
import proofs.«173165_j59906203844970_1_alg».proof.Proof.Gen.ReferenceIdeal
import proofs.«173165_j59906203844970_1_alg».proof.Proof.Gen.Pre_finite_inputs
import proofs.«173165_j59906203844970_1_alg».proof.Proof.Gen.KernelIdeal.Value
import proofs.«173165_j59906203844970_1_alg».proof.Proof.Gen.ReferenceIdeal.Run
import proofs.«173165_j59906203844970_1_alg».proof.Proof.Gen.ReferenceIdeal.Read
import proofs.«173165_j59906203844970_1_alg».proof.Proof.KValue
import proofs.«173165_j59906203844970_1_alg».proof.Proof.RefValue
import Idealize.ShloMosaic.Adequacy
import Idealize.ShloMosaic.Init

noncomputable section

namespace Cert.Proof

open Idealize.ShloMosaic Idealize.SL.Sem

/-- The word-level kernel and its idealization run to the end without a fault and leave x and h as they were. -/
theorem frame_kernel : Cert.frame_Kernel := fun m ρ _ => Cert.Kernel.Gen.frame m ρ
theorem frame_kernelIdeal : Cert.frame_KernelIdeal := fun m ρ _ => Cert.KernelIdeal.Gen.frame m ρ

/-- The reference is one host operation: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at the product of their (agreeing) arguments. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
